-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192x128 : Shape := ⟨3, ![1, 8192, 128]⟩
abbrev S8192x8192 : Shape := ⟨2, ![8192, 8192]⟩
abbrev S128x128 : Shape := ⟨2, ![128, 128]⟩
abbrev S128 : Shape := ⟨1, ![128]⟩
abbrev S_ : Shape := ⟨0, ![]⟩

class Facts : Prop where
  bcast_S_S1x8192x128 : S_.BroadcastsInDim S1x8192x128 (![] : Fin 0 → Fin S1x8192x128.rank)
  reducesTo_S1x8192x128_S_d0_1_2 : S1x8192x128.ReducesTo [0, 1, 2] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S1x8192x128 .f32) (main_arg1 : FVec F S8192x8192 .f32) (main_arg2 : FVec F S8192x8192 .f32) (main_arg3 : FVec F S128x128 .f32) (main_arg4 : FVec F S128x128 .f32) (main_arg5 : FVec F S128x128 .f32) (main_arg6 : FVec F S128 .f32) : IVec S_ 1 :=
  let main_v0 : FVec F S1x8192x128 .f32 := Host.absf main_arg0
  let main_cst : FVec F S_ .f32 := constant S_ .f32 0x7F800000#32
  let main_v1 : FVec F S1x8192x128 .f32 := broadcastInDim S1x8192x128 ![] bcast_S_S1x8192x128 main_cst
  let main_v2 : IVec S1x8192x128 1 := cmpf .olt main_v0 main_v1
  let main_c : IVec S_ 1 := constantI S_ 1 1#1
  let main_v3 : IVec S_ 1 := (fun x v => Host.reduce IntOp.andi x v reducesTo_S1x8192x128_S_d0_1_2 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S1x8192x128 : Shape := ⟨3, ![1, 8192, 128]⟩
abbrev S8192x8192 : Shape := ⟨2, ![8192, 8192]⟩
abbrev S128x128 : Shape := ⟨2, ![128, 128]⟩
abbrev S128 : Shape := ⟨1, ![128]⟩
abbrev S8192x128 : Shape := ⟨2, ![8192, 128]⟩
abbrev S1x128 : Shape := ⟨2, ![1, 128]⟩
abbrev S256x8192 : Shape := ⟨2, ![256, 8192]⟩
abbrev S256x128 : Shape := ⟨2, ![256, 128]⟩

abbrev nBuf : Space → Nat
  | .hbm => 11
  | .vmem => 14
  | .smem => 0
  | _ => 0

abbrev bufTy : (tb : Table) → Fin (tcTables nBuf tb) → BufTy
  | .hbm, ⟨0, _⟩ => ⟨S1x8192x128, .f32⟩
  | .hbm, ⟨1, _⟩ => ⟨S8192x8192, .f32⟩
  | .hbm, ⟨2, _⟩ => ⟨S8192x8192, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S8192x128, .f32⟩
  | .hbm, ⟨8, _⟩ => ⟨S1x128, .f32⟩
  | .hbm, ⟨9, _⟩ => ⟨S8192x128, .f32⟩
  | .hbm, ⟨10, _⟩ => ⟨S1x8192x128, .f32⟩
  | .local _ .vmem, ⟨0, _⟩ => ⟨S8192x128, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | .local _ .vmem, ⟨4, _⟩ => ⟨S256x8192, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S256x128, .f32⟩
  | .local _ .vmem, ⟨10, _⟩ => ⟨S256x128, .f32⟩
  | .local _ .vmem, ⟨11, _⟩ => ⟨S8192x128, .f32⟩
  | .local _ .vmem, ⟨12, _⟩ => ⟨S8192x128, .f32⟩
  | .local _ .vmem, ⟨13, _⟩ => ⟨S8192x128, .f32⟩
  | _, _ => ⟨S1x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let c256_i32 : BitVec 32 := 256#32
  let v3 : BitVec 32 := Scalar.muli arg0 c256_i32
  let v4 : Index := Scalar.indexCast v3
  let c0 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S1x8192x128_S8192x128 : S1x8192x128.ShapeCasts S8192x128
  shapeCasts_S128_S1x128 : S128.ShapeCasts S1x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  h_S256x128 : 0 < S256x128.numel
  inb_S256x8192_S256x8192_0_0 : ∀ a, (![0, 0] : Fin 2 → Nat) a + S256x8192.size a ≤ S256x8192.size a
  h_S256x8192 : 0 < S256x8192.numel
  inb_S256x128_S256x128_0_0 : ∀ a, (![0, 0] : Fin 2 → Nat) a + S256x128.size a ≤ S256x128.size a
  bcast_S8192x128_S1x8192x128_1_2 : S8192x128.BroadcastsInDim S1x8192x128 (![1, 2] : Fin 2 → Fin S1x8192x128.rank)
  dot_S8192x128_S128x128_S8192x128_1_0_0_1_n_n_wf : DotDims.WF S8192x128 S128x128 S8192x128 [1] [0] [0] [1] [] []
  dot_S256x8192_S8192x128_S256x128_1_0_0_1_n_n_wf : DotDims.WF S256x8192 S8192x128 S256x128 [1] [0] [0] [1] [] []
  hrank0 : 0 < grid0.rank
  k0_off1_inb : ∀ i : grid0.Coords, ∀ a, (k0_off1 i) a + S256x128.size a ≤ S8192x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .f32 = 32 ∨ (Rect.block (s := S8192x8192) S256x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x8192.size a ≤ S8192x8192.size a
  hwx0_2 : ∀ i : grid0.Coords, EltTy.bits .f32 = 32 ∨ (Rect.block (s := S8192x8192) S256x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S8192x128.size a
  hwx0_7 : ∀ i : grid0.Coords, EltTy.bits .f32 = 32 ∨ (Rect.block (s := S8192x128) S256x128.size (cc0_transform_7 i) (hinb0_7 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf

abbrev win0_0 : Pipeline.Window sig grid0 :=
  Pipeline.Window.ofSpec (Memref.whole main_v0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v0) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S256x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1x8192x128 : Shape := ⟨3, ![1, 8192, 128]⟩
abbrev S8192x8192 : Shape := ⟨2, ![8192, 8192]⟩
abbrev S128x128 : Shape := ⟨2, ![128, 128]⟩
abbrev S128 : Shape := ⟨1, ![128]⟩
abbrev S8192x128 : Shape := ⟨2, ![8192, 128]⟩
abbrev S1x128 : Shape := ⟨2, ![1, 128]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S1x8192x128, .f32⟩
  | .hbm, ⟨1, _⟩ => ⟨S8192x8192, .f32⟩
  | .hbm, ⟨2, _⟩ => ⟨S8192x8192, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S8192x128, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S1x128, .f32⟩
  | .hbm, ⟨16, _⟩ => ⟨S8192x128, .f32⟩
  | .hbm, ⟨17, _⟩ => ⟨S8192x128, .f32⟩
  | .hbm, ⟨18, _⟩ => ⟨S_, .f32⟩
  | .hbm, ⟨19, _⟩ => ⟨S8192x128, .f32⟩
  | .hbm, ⟨20, _⟩ => ⟨S8192x128, .f32⟩
  | .hbm, ⟨21, _⟩ => ⟨S1x8192x128, .f32⟩
  | _, _ => ⟨S1x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_cst : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]

class Facts₀ : Prop where
  shapeCasts_S1x8192x128_S8192x128 : S1x8192x128.ShapeCasts S8192x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S8192x128_S1x8192x128_1_2 : S8192x128.BroadcastsInDim S1x8192x128 (![1, 2] : Fin 2 → Fin S1x8192x128.rank)
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.KArr.lean ====
/-
  Names for the arrays the kernel region finds when it is entered: the features with the leading unit axis dropped,
  the two adjacency matrices, the three weight matrices, and the bias as a one-row matrix. Row `p` of the row panel
  that grid point `t` works on is row `256 t + p` of the full matrices.
-/
import proofs.«175918_g38826504356516_cont_8to1_b_1379_13_alg».proof.Proof.Gen.KernelIdeal.Frame
import Idealize.ShloMosaic.Lib.Pipeline.Value

noncomputable section

namespace Cert.KernelIdeal.KVal

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- The features as the region finds them: an 8192 × 128 matrix. -/
abbrev arrX (c : Dev nD) : Vec F S8192x128 .f32 := V m c main_v0
/-- The first adjacency matrix. -/
abbrev arrA0 (c : Dev nD) : Vec F S8192x8192 .f32 := V m c main_arg1
/-- The second adjacency matrix. -/
abbrev arrA1 (c : Dev nD) : Vec F S8192x8192 .f32 := V m c main_arg2
/-- The self weights. -/
abbrev arrWs (c : Dev nD) : Vec F S128x128 .f32 := V m c main_arg3
/-- The first relation's weights. -/
abbrev arrW0 (c : Dev nD) : Vec F S128x128 .f32 := V m c main_arg4
/-- The second relation's weights. -/
abbrev arrW1 (c : Dev nD) : Vec F S128x128 .f32 := V m c main_arg5
/-- The bias as a 1 × 128 matrix. -/
abbrev arrB (c : Dev nD) : Vec F S1x128 .f32 := V m c main_call0_v0

/-- Row `p` of grid point `t`'s panel, as a row of the full matrices. -/
def panelRow (t : Fin cfg0.N) (p : Fin 256) : Fin 8192 :=
  ⟨256 * t.val + p.val, by have h : t.val < 32 := lt_of_lt_of_eq t.isLt N_0; have := p.isLt; omega⟩

/-- The 256 rows of an 8192 × 128 matrix that the body loads at grid coordinates `i`: rows `256 i … 256 i + 255`. -/
def panelOf (i : grid0.Coords) (v : Vec F S8192x128 .f32) : Vec F S256x128 .f32 :=
  View.ld v (Rect.unit (s := S8192x128) (k0_off1 i) S256x128.size (k0_off1_inb i))

end Cert.KernelIdeal.KVal

end
-- ==== Proof.KPieces.lean ====
/-
  What one run of the kernel body leaves behind, as values.

  At the first grid point the body fills its three scratch matrices — the features times the first relation's weights,
  the features times the second relation's weights, and the features times the self weights plus the bias row — each
  by one store that covers the scratch; at later points it leaves them alone. At every point it then loads one row
  panel of the third scratch, adds the products of the two adjacency row panels with the first two scratch matrices,
  clamps at zero, and stores the panel into the output block by one covering store. At the first point the three
  scratch reads see what was stored a moment before; at later points they see what the point before left.
-/
import proofs.«175918_g38826504356516_cont_8to1_b_1379_13_alg».proof.Proof.KArr
import Idealize.ShloMosaic.Lib.Pipeline.Value
import Idealize.ShloMosaic.Lib.Tactic

noncomputable section
set_option maxRecDepth 16384

namespace Cert.KernelIdeal.KVal

open Idealize.ShloMosaic Idealize.ShloMosaic.TcCoe Idealize.SL.Sem
open Cert.KernelIdeal Cert.KernelIdeal.Gen

variable {F : FTy → Type} [FloatOps F]

/-- The zero offsets of a whole-buffer access, as the constant function. -/
theorem hz : (![0, 0] : Fin 2 → Nat) = fun _ => 0 := funext fun a => by fin_cases a <;> rfl

/-- First point: the first scratch ends at the features times the first relation's weights. -/
theorem scr0_A (c : Dev nD) (i : grid0.Coords) (a1 : Memref sig .tc .vmem S8192x128 .f32) (h1 : a1.IsWhole) (a2 : Memref sig .tc .vmem S256x8192 .f32) (h2 : a2.IsWhole) (a3 : Memref sig .tc .vmem S256x8192 .f32) (h3 : a3.IsWhole) (a4 : Memref sig .tc .vmem S128x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S256x128 .f32) (h8 : a8.IsWhole) (a9 : Memref sig .tc .vmem S8192x128 .f32) (h9 : a9.IsWhole) (a10 : Memref sig .tc .vmem S8192x128 .f32) (h10 : a10.IsWhole) (a11 : Memref sig .tc .vmem S8192x128 .f32) (h11 : a11.IsWhole) (hc : cond0_0 i) (x0 : Vec F S8192x128 .f32) (x1 : Vec F S256x8192 .f32) (x2 : Vec F S256x8192 .f32) (x3 : Vec F S128x128 .f32) (x4 : Vec F S128x128 .f32) (x5 : Vec F S128x128 .f32) (x6 : Vec F S1x128 .f32) :
    sout0_A_0 c i a1 h1 a2 h2 a3 h3 a4 h4 a5 h5 a6 h6 a7 h7 a8 h8 a9 h9 a10 h10 a11 h11 hc x0 x1 x2 x3 x4 x5 x6 = k0_pay2 x0 x4 := by
  unfold sout0_A_0
  rw [View.read_writes_eq_canon _ _ _ (scover0_A_0 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  rw [View.canon_unit_zero hz]
  simp only [View.readAt_eq_ld, h1.read_unread, h5.read_unread, View.ld_unit_zero (S := S8192x128) hz,
    View.ld_unit_zero (S := S128x128) hz]

/-- First point: the second scratch ends at the features times the second relation's weights. -/
theorem scr1_A (c : Dev nD) (i : grid0.Coords) (a1 : Memref sig .tc .vmem S8192x128 .f32) (h1 : a1.IsWhole) (a2 : Memref sig .tc .vmem S256x8192 .f32) (h2 : a2.IsWhole) (a3 : Memref sig .tc .vmem S256x8192 .f32) (h3 : a3.IsWhole) (a4 : Memref sig .tc .vmem S128x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S256x128 .f32) (h8 : a8.IsWhole) (a9 : Memref sig .tc .vmem S8192x128 .f32) (h9 : a9.IsWhole) (a10 : Memref sig .tc .vmem S8192x128 .f32) (h10 : a10.IsWhole) (a11 : Memref sig .tc .vmem S8192x128 .f32) (h11 : a11.IsWhole) (hc : cond0_0 i) (x0 : Vec F S8192x128 .f32) (x1 : Vec F S256x8192 .f32) (x2 : Vec F S256x8192 .f32) (x3 : Vec F S128x128 .f32) (x4 : Vec F S128x128 .f32) (x5 : Vec F S128x128 .f32) (x6 : Vec F S1x128 .f32) :
    sout0_A_1 c i a1 h1 a2 h2 a3 h3 a4 h4 a5 h5 a6 h6 a7 h7 a8 h8 a9 h9 a10 h10 a11 h11 hc x0 x1 x2 x3 x4 x5 x6 = k0_pay3 x0 x5 := by
  unfold sout0_A_1
  rw [View.read_writes_eq_canon _ _ _ (scover0_A_1 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  rw [View.canon_unit_zero hz]
  simp only [View.readAt_eq_ld, h1.read_unread, h6.read_unread, View.ld_unit_zero (S := S8192x128) hz,
    View.ld_unit_zero (S := S128x128) hz]

/-- First point: the third scratch ends at the features times the self weights plus the bias row. -/
theorem scr2_A (c : Dev nD) (i : grid0.Coords) (a1 : Memref sig .tc .vmem S8192x128 .f32) (h1 : a1.IsWhole) (a2 : Memref sig .tc .vmem S256x8192 .f32) (h2 : a2.IsWhole) (a3 : Memref sig .tc .vmem S256x8192 .f32) (h3 : a3.IsWhole) (a4 : Memref sig .tc .vmem S128x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S256x128 .f32) (h8 : a8.IsWhole) (a9 : Memref sig .tc .vmem S8192x128 .f32) (h9 : a9.IsWhole) (a10 : Memref sig .tc .vmem S8192x128 .f32) (h10 : a10.IsWhole) (a11 : Memref sig .tc .vmem S8192x128 .f32) (h11 : a11.IsWhole) (hc : cond0_0 i) (x0 : Vec F S8192x128 .f32) (x1 : Vec F S256x8192 .f32) (x2 : Vec F S256x8192 .f32) (x3 : Vec F S128x128 .f32) (x4 : Vec F S128x128 .f32) (x5 : Vec F S128x128 .f32) (x6 : Vec F S1x128 .f32) :
    sout0_A_2 c i a1 h1 a2 h2 a3 h3 a4 h4 a5 h5 a6 h6 a7 h7 a8 h8 a9 h9 a10 h10 a11 h11 hc x0 x1 x2 x3 x4 x5 x6 = k0_pay4 x0 x3 x6 := by
  unfold sout0_A_2
  rw [View.read_writes_eq_canon _ _ _ (scover0_A_2 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  rw [View.canon_unit_zero hz]
  simp only [View.readAt_eq_ld, h1.read_unread, h4.read_unread, h7.read_unread, View.ld_unit_zero (S := S8192x128) hz,
    View.ld_unit_zero (S := S128x128) hz, View.ld_unit_zero (S := S1x128) hz]

/-- First point: the output block is the panel's result over the three scratch matrices just stored. -/
theorem out_A (c : Dev nD) (i : grid0.Coords) (a1 : Memref sig .tc .vmem S8192x128 .f32) (h1 : a1.IsWhole) (a2 : Memref sig .tc .vmem S256x8192 .f32) (h2 : a2.IsWhole) (a3 : Memref sig .tc .vmem S256x8192 .f32) (h3 : a3.IsWhole) (a4 : Memref sig .tc .vmem S128x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S256x128 .f32) (h8 : a8.IsWhole) (a9 : Memref sig .tc .vmem S8192x128 .f32) (h9 : a9.IsWhole) (a10 : Memref sig .tc .vmem S8192x128 .f32) (h10 : a10.IsWhole) (a11 : Memref sig .tc .vmem S8192x128 .f32) (h11 : a11.IsWhole) (hc : cond0_0 i) (x0 : Vec F S8192x128 .f32) (x1 : Vec F S256x8192 .f32) (x2 : Vec F S256x8192 .f32) (x3 : Vec F S128x128 .f32) (x4 : Vec F S128x128 .f32) (x5 : Vec F S128x128 .f32) (x6 : Vec F S1x128 .f32) :
    out0_A_7 c i a1 h1 a2 h2 a3 h3 a4 h4 a5 h5 a6 h6 a7 h7 a8 h8 a9 h9 a10 h10 a11 h11 hc x0 x1 x2 x3 x4 x5 x6
      = k0_pay5 (panelOf i (k0_pay4 x0 x3 x6)) x1 (k0_pay2 x0 x4) x2 (k0_pay3 x0 x5) := by
  unfold out0_A_7
  rw [View.read_writes_eq_canon _ _ _ (cover0_A_7 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread,
    h6.read_unread, h7.read_unread, View.ld_unit_zero (S := S8192x128) hz, View.ld_unit_zero (S := S128x128) hz,
    View.ld_unit_zero (S := S1x128) hz, View.ld_unit_zero (S := S256x8192) hz,
    View.readCov_unit_zero (S := S8192x128) _ hz, View.read_writes_junk_eq_canon, View.canon_unit_zero (S := S8192x128) hz]
  unfold panelOf k0_off1
  rfl

/-- Later points: the output block is the panel's result over the scratch matrices the point before left. -/
theorem out_B (c : Dev nD) (i : grid0.Coords) (a1 : Memref sig .tc .vmem S8192x128 .f32) (h1 : a1.IsWhole) (a2 : Memref sig .tc .vmem S256x8192 .f32) (h2 : a2.IsWhole) (a3 : Memref sig .tc .vmem S256x8192 .f32) (h3 : a3.IsWhole) (a4 : Memref sig .tc .vmem S128x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S256x128 .f32) (h8 : a8.IsWhole) (a9 : Memref sig .tc .vmem S8192x128 .f32) (h9 : a9.IsWhole) (a10 : Memref sig .tc .vmem S8192x128 .f32) (h10 : a10.IsWhole) (a11 : Memref sig .tc .vmem S8192x128 .f32) (h11 : a11.IsWhole) (hc : ¬cond0_0 i) (x0 : Vec F S8192x128 .f32) (x1 : Vec F S256x8192 .f32) (x2 : Vec F S256x8192 .f32) (x3 : Vec F S128x128 .f32) (x4 : Vec F S128x128 .f32) (x5 : Vec F S128x128 .f32) (x6 : Vec F S1x128 .f32) (xs0 : Vec F S8192x128 .f32) (xs1 : Vec F S8192x128 .f32) (xs2 : Vec F S8192x128 .f32) :
    out0_B_7 c i a1 h1 a2 h2 a3 h3 a4 h4 a5 h5 a6 h6 a7 h7 a8 h8 a9 h9 a10 h10 a11 h11 hc x0 x1 x2 x3 x4 x5 x6 xs0 xs1 xs2 = k0_pay5 (panelOf i xs2) x1 xs0 x2 xs1 := by
  unfold out0_B_7
  rw [View.read_writes_eq_canon _ _ _ (cover0_B_7 c i a1 h1 a2 h2 a3 h3 a4 h4 a5 h5 a6 h6 a7 h7 a8 h8 a9 h9 a10 h10 a11 h11 hc x0 x1 x2 x3 x4 x5 x6 xs0 xs1 xs2)]
  unfold kernelRun0_B
  dsimp only
  sl_unfold_words
  rw [View.canon_unit_zero hz]
  simp only [View.readAt_eq_ld, h2.read_unread, h3.read_unread, h9.read_unread, h10.read_unread, h11.read_unread,
    View.ld_unit_zero (S := S8192x128) hz, View.ld_unit_zero (S := S256x8192) hz]
  rfl

end Cert.KernelIdeal.KVal

end
-- ==== Proof.KInvariant.lean ====
/-
  The state after each grid point.

  The three scratch matrices are filled at the first point and never written again, so after EVERY point they hold the
  same three products of the features with the weights (the third with the bias row added). The output's staging
  block after point `n` is the panel's result over those three matrices and the two adjacency row panels of point
  `n`. Both facts together are one statement about the state after point `n`, proved by induction on `n`: the first
  point is the case that fills the scratch, every later point is the case that only reads it.
-/
import proofs.«175918_g38826504356516_cont_8to1_b_1379_13_alg».proof.Proof.KPieces

noncomputable section
set_option maxRecDepth 16384

namespace Cert.KernelIdeal.KVal

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The first grid point. -/
def t0 : Fin cfg0.N := ⟨0, by have h : cfg0.N = 32 := N_0; omega⟩

/-- The first scratch matrix: the features times the first relation's weights, from the blocks of the first point. -/
def scrY0 (c : Dev nD) : Vec F S8192x128 .f32 := k0_pay2 (iblk m c 0 t0) (iblk m c 4 t0)
/-- The second scratch matrix: the features times the second relation's weights. -/
def scrY1 (c : Dev nD) : Vec F S8192x128 .f32 := k0_pay3 (iblk m c 0 t0) (iblk m c 5 t0)
/-- The third scratch matrix: the features times the self weights, plus the bias row. -/
def scrS (c : Dev nD) : Vec F S8192x128 .f32 := k0_pay4 (iblk m c 0 t0) (iblk m c 3 t0) (iblk m c 6 t0)

/-- The state after point `n`: the output's staging block, then the three scratch matrices. -/
def stateAt (c : Dev nD) (n : ℕ) (h : n < cfg0.N) :
    Vec F S256x128 .f32 × Vec F S8192x128 .f32 × Vec F S8192x128 .f32 × Vec F S8192x128 .f32 :=
  (k0_pay5 (panelOf (grid0.coords ⟨n, h⟩) (scrS m c)) (iblk m c 1 ⟨n, h⟩) (scrY0 m c) (iblk m c 2 ⟨n, h⟩) (scrY1 m c),
    scrY0 m c, scrY1 m c, scrS m c)

set_option maxHeartbeats 1600000 in
/-- What the frame's run records after point `n` is that state. -/
theorem outsAt_eq (c : Dev nD) : ∀ (n : ℕ) (h : n < cfg0.N), outsAt0 m c n h = stateAt m c n h
  | 0, h => by
    refine (outsAt0_A m c ⟨0, h⟩ rfl).trans ?_
    have e1 := out_A (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0_0 (Memref.isWhole_whole _) scM0_1 (Memref.isWhole_whole _) scM0_2 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩)
    have e2 := scr0_A (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0_0 (Memref.isWhole_whole _) scM0_1 (Memref.isWhole_whole _) scM0_2 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩)
    have e3 := scr1_A (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0_0 (Memref.isWhole_whole _) scM0_1 (Memref.isWhole_whole _) scM0_2 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩)
    have e4 := scr2_A (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0_0 (Memref.isWhole_whole _) scM0_1 (Memref.isWhole_whole _) scM0_2 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩)
    rw [e1, e2, e3, e4]
    rfl
  | n + 1, h => by
    have hN : cfg0.N = 32 := N_0
    have hB : ¬(⟨n + 1, h⟩ : Fin cfg0.N).val % 32 = 0 := by dsimp only; omega
    have ih : outsAt0 m c ((⟨n + 1, h⟩ : Fin cfg0.N).val - 1)
        (Nat.lt_of_le_of_lt (Nat.sub_le _ _) (⟨n + 1, h⟩ : Fin cfg0.N).isLt) = stateAt m c n (Nat.lt_of_succ_lt h) :=
      outsAt_eq c n (Nat.lt_of_succ_lt h)
    refine (outsAt0_B m c ⟨n + 1, h⟩ hB).trans ?_
    rw [ih]
    have e1 := out_B (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) scM0_2 (Memref.isWhole_whole _) (fun hh => hB ((hcond0_0 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (stateAt m c n (Nat.lt_of_succ_lt h)).2.1 (stateAt m c n (Nat.lt_of_succ_lt h)).2.2.1 (stateAt m c n (Nat.lt_of_succ_lt h)).2.2.2
    rw [e1]
    rfl

end Cert.KernelIdeal.KVal

end
-- ==== Proof.KBlocks.lean ====
/-
  What each input window's block is at a grid point, read off the arrays the region finds.

  The features, the three weight matrices and the bias row are fetched whole: their index maps are constantly (0, 0)
  and their blocks are the whole arrays. The two adjacency matrices are fetched by row panels: at grid point `t` the
  block is rows `256 t … 256 t + 255`, all 8192 columns, so its entry (p, k) is the matrix's entry (256 t + p, k).
-/
import proofs.«175918_g38826504356516_cont_8to1_b_1379_13_alg».proof.Proof.KArr
import Idealize.ShloMosaic.Lib.Pipeline.Value
import Idealize.ShloMosaic.Lib.ValueIdx

noncomputable section

namespace Cert.KernelIdeal.KVal

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-! ## Where each window's block sits

  A block's coordinate along an axis is (block index) × (block extent) + (coordinate inside the block). The block
  indices depend on the grid point only; the grid has 32 points, so each relation below is checked at all of them. -/

/-- The features' block index is (0, 0) at every point. -/
theorem idxX : ∀ t : Fin cfg0.N, win0_0.index t (0 : Fin 2) = 0 ∧ win0_0.index t (1 : Fin 2) = 0 :=
  (by decide +kernel : ∀ t : Fin grid0.N, _)
/-- The first adjacency matrix's block index is (t, 0): row panel `t`, all columns. -/
theorem idxA0 : ∀ t : Fin cfg0.N, win0_1.index t (0 : Fin 2) = t.val ∧ win0_1.index t (1 : Fin 2) = 0 :=
  (by decide +kernel : ∀ t : Fin grid0.N, _)
/-- The second adjacency matrix's block index is (t, 0) as well. -/
theorem idxA1 : ∀ t : Fin cfg0.N, win0_2.index t (0 : Fin 2) = t.val ∧ win0_2.index t (1 : Fin 2) = 0 :=
  (by decide +kernel : ∀ t : Fin grid0.N, _)
/-- The self weights' block index is (0, 0). -/
theorem idxWs : ∀ t : Fin cfg0.N, win0_3.index t (0 : Fin 2) = 0 ∧ win0_3.index t (1 : Fin 2) = 0 :=
  (by decide +kernel : ∀ t : Fin grid0.N, _)
/-- The first relation's weights' block index is (0, 0). -/
theorem idxW0 : ∀ t : Fin cfg0.N, win0_4.index t (0 : Fin 2) = 0 ∧ win0_4.index t (1 : Fin 2) = 0 :=
  (by decide +kernel : ∀ t : Fin grid0.N, _)
/-- The second relation's weights' block index is (0, 0). -/
theorem idxW1 : ∀ t : Fin cfg0.N, win0_5.index t (0 : Fin 2) = 0 ∧ win0_5.index t (1 : Fin 2) = 0 :=
  (by decide +kernel : ∀ t : Fin grid0.N, _)
/-- The bias row's block index is (0, 0). -/
theorem idxB : ∀ t : Fin cfg0.N, win0_6.index t (0 : Fin 2) = 0 ∧ win0_6.index t (1 : Fin 2) = 0 :=
  (by decide +kernel : ∀ t : Fin grid0.N, _)
/-- The rows the body loads at point `t` start at row `256 t`, column 0. -/
theorem offPanel : ∀ t : Fin cfg0.N,
    k0_off1 (grid0.coords t) (0 : Fin 2) = 256 * t.val ∧ k0_off1 (grid0.coords t) (1 : Fin 2) = 0 :=
  (by decide +kernel : ∀ t : Fin grid0.N, _)

/-- The features' block is the whole matrix, at every point. -/
theorem blkX (c : Dev nD) (t : Fin cfg0.N) : (iblk m c 0 t : Vec F S8192x128 .f32) = arrX m c := by
  funext y
  unfold iblk
  rw [View.read_apply]
  show V m c main_v0 _ = V m c main_v0 y
  congr 1
  funext a
  apply Fin.ext
  match a with
  | ⟨0, _⟩ => show win0_0.index t 0 * 8192 + 1 * (y 0).val = (y 0).val; rw [(idxX t).1]; omega
  | ⟨1, _⟩ => show win0_0.index t 1 * 128 + 1 * (y 1).val = (y 1).val; rw [(idxX t).2]; omega

/-- The self weights' block is the whole matrix. -/
theorem blkWs (c : Dev nD) (t : Fin cfg0.N) : (iblk m c 3 t : Vec F S128x128 .f32) = arrWs m c := by
  funext y
  unfold iblk
  rw [View.read_apply]
  show V m c main_arg3 _ = V m c main_arg3 y
  congr 1
  funext a
  apply Fin.ext
  match a with
  | ⟨0, _⟩ => show win0_3.index t 0 * 128 + 1 * (y 0).val = (y 0).val; rw [(idxWs t).1]; omega
  | ⟨1, _⟩ => show win0_3.index t 1 * 128 + 1 * (y 1).val = (y 1).val; rw [(idxWs t).2]; omega

/-- The first relation's weights' block is the whole matrix. -/
theorem blkW0 (c : Dev nD) (t : Fin cfg0.N) : (iblk m c 4 t : Vec F S128x128 .f32) = arrW0 m c := by
  funext y
  unfold iblk
  rw [View.read_apply]
  show V m c main_arg4 _ = V m c main_arg4 y
  congr 1
  funext a
  apply Fin.ext
  match a with
  | ⟨0, _⟩ => show win0_4.index t 0 * 128 + 1 * (y 0).val = (y 0).val; rw [(idxW0 t).1]; omega
  | ⟨1, _⟩ => show win0_4.index t 1 * 128 + 1 * (y 1).val = (y 1).val; rw [(idxW0 t).2]; omega

/-- The second relation's weights' block is the whole matrix. -/
theorem blkW1 (c : Dev nD) (t : Fin cfg0.N) : (iblk m c 5 t : Vec F S128x128 .f32) = arrW1 m c := by
  funext y
  unfold iblk
  rw [View.read_apply]
  show V m c main_arg5 _ = V m c main_arg5 y
  congr 1
  funext a
  apply Fin.ext
  match a with
  | ⟨0, _⟩ => show win0_5.index t 0 * 128 + 1 * (y 0).val = (y 0).val; rw [(idxW1 t).1]; omega
  | ⟨1, _⟩ => show win0_5.index t 1 * 128 + 1 * (y 1).val = (y 1).val; rw [(idxW1 t).2]; omega

/-- The bias row's block is the whole row. -/
theorem blkB (c : Dev nD) (t : Fin cfg0.N) : (iblk m c 6 t : Vec F S1x128 .f32) = arrB m c := by
  funext y
  unfold iblk
  rw [View.read_apply]
  show V m c main_call0_v0 _ = V m c main_call0_v0 y
  congr 1
  funext a
  apply Fin.ext
  match a with
  | ⟨0, _⟩ => show win0_6.index t 0 * 1 + 1 * (y 0).val = (y 0).val; rw [(idxB t).1]; omega
  | ⟨1, _⟩ => show win0_6.index t 1 * 128 + 1 * (y 1).val = (y 1).val; rw [(idxB t).2]; omega

/-- Entry (p, k) of the first adjacency matrix's row panel at point `t` is the matrix's entry (256 t + p, k). -/
theorem blkA0_apply (c : Dev nD) (t : Fin cfg0.N) (p : Fin 256) (k : Fin 8192) :
    (iblk m c 1 t : Vec F S256x8192 .f32) (ix2 p k) = arrA0 m c (ix2 (panelRow t p) k) := by
  unfold iblk
  rw [View.read_apply]
  show V m c main_arg1 _ = V m c main_arg1 (ix2 (panelRow t p) k)
  congr 1
  funext a
  apply Fin.ext
  match a with
  | ⟨0, _⟩ => show win0_1.index t 0 * 256 + 1 * p.val = 256 * t.val + p.val; rw [(idxA0 t).1]; omega
  | ⟨1, _⟩ => show win0_1.index t 1 * 8192 + 1 * k.val = k.val; rw [(idxA0 t).2]; omega

/-- The same for the second adjacency matrix. -/
theorem blkA1_apply (c : Dev nD) (t : Fin cfg0.N) (p : Fin 256) (k : Fin 8192) :
    (iblk m c 2 t : Vec F S256x8192 .f32) (ix2 p k) = arrA1 m c (ix2 (panelRow t p) k) := by
  unfold iblk
  rw [View.read_apply]
  show V m c main_arg2 _ = V m c main_arg2 (ix2 (panelRow t p) k)
  congr 1
  funext a
  apply Fin.ext
  match a with
  | ⟨0, _⟩ => show win0_2.index t 0 * 256 + 1 * p.val = 256 * t.val + p.val; rw [(idxA1 t).1]; omega
  | ⟨1, _⟩ => show win0_2.index t 1 * 8192 + 1 * k.val = k.val; rw [(idxA1 t).2]; omega

/-- Entry (p, q) of the rows the body loads at point `t` is the matrix's entry (256 t + p, q). -/
theorem panelOf_apply (t : Fin cfg0.N) (v : Vec F S8192x128 .f32) (p : Fin 256) (q : Fin 128) :
    panelOf (grid0.coords t) v (ix2 p q) = v (ix2 (panelRow t p) q) := by
  unfold panelOf
  show v ((Rect.unit (s := S8192x128) (k0_off1 (grid0.coords t)) S256x128.size (k0_off1_inb (grid0.coords t))).idx (ix2 p q))
    = v (ix2 (panelRow t p) q)
  congr 1
  funext a
  apply Fin.ext
  match a with
  | ⟨0, _⟩ => show k0_off1 (grid0.coords t) 0 + 1 * p.val = 256 * t.val + p.val; rw [(offPanel t).1]; omega
  | ⟨1, _⟩ => show k0_off1 (grid0.coords t) 1 + 1 * q.val = q.val; rw [(offPanel t).2]; omega

end Cert.KernelIdeal.KVal

end
-- ==== Proof.KHost.lean ====
/-
  The host operations around the kernel region.

  Before the region the features' leading unit axis is dropped by a reshape (entry (r, k) of the matrix is entry
  (0, r, k) of the argument) and the bias vector becomes a one-row matrix (entry (0, q) is entry q); the other five
  arguments reach the region untouched. After the region the result matrix gets its leading unit axis back: entry
  (0, r, q) of the program's result is entry (r, q) of the array the region wrote.
-/
import proofs.«175918_g38826504356516_cont_8to1_b_1379_13_alg».proof.Proof.KArr
import Idealize.ShloMosaic.Lib.Pipeline.Value
import Idealize.ShloMosaic.Lib.ValueIdx
import Idealize.ShloMosaic.Lib.StableHlo.Run

noncomputable section

namespace Cert.KernelIdeal.KVal

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The features matrix the region finds is the argument with its leading unit axis dropped: the same entries in
    the same row-major order. -/
theorem arrX_eq (c : Dev nD) :
    (arrX m c : S8192x128.Idx → Elt F .f32)
      = shapeCast _ (m ((c : Thread nD τ).loc main_arg0)) shapeCasts_S1x8192x128_S8192x128 := by
  dsimp only [arrX, Gen.V, Gen.V0]
  simp only [Gen.hostOps0, Gen.hostOps0_1, List.flatten_cons, List.flatten_nil, List.append_nil, List.cons_append,
    List.nil_append]
  after_results
  rfl

/-- Entry (r, k) of the features matrix the region finds is entry (0, r, k) of the argument. -/
theorem arrX_apply (c : Dev nD) (r : Fin 8192) (k : Fin 128) :
    arrX m c (ix2 r k) = m ((c : Thread nD τ).loc main_arg0) (ix3 0 r k) := by
  refine (congrFun (arrX_eq m c) (ix2 r k)).trans ?_
  -- both indices sit at row-major position 128 r + k
  exact shapeCast_apply _ shapeCasts_S1x8192x128_S8192x128 (ix2 r k) (ix3 0 r k)
    (by rewrite [Shape.rowMajor_val_three, Shape.rowMajor_val_two]
        show (0 * 8192 + r.val) * 128 + k.val = r.val * 128 + k.val
        omega)

/-- The bias row the region finds is the bias vector read as a one-row matrix: the same entries in the same order. -/
theorem arrB_eq (c : Dev nD) :
    (arrB m c : S1x128.Idx → Elt F .f32)
      = shapeCast _ (m ((c : Thread nD τ).loc main_arg6)) shapeCasts_S128_S1x128 := by
  dsimp only [arrB, Gen.V, Gen.V0]
  simp only [Gen.hostOps0, Gen.hostOps0_1, List.flatten_cons, List.flatten_nil, List.append_nil, List.cons_append,
    List.nil_append]
  after_results
  rfl

/-- Entry (0, q) of the bias row the region finds is entry q of the argument. -/
theorem arrB_apply (c : Dev nD) (q : Fin 128) :
    arrB m c (ix2 0 q) = m ((c : Thread nD τ).loc main_arg6) (ix1 q) := by
  refine (congrFun (arrB_eq m c) (ix2 0 q)).trans ?_
  -- both indices sit at row-major position q
  exact shapeCast_apply _ shapeCasts_S128_S1x128 (ix2 0 q) (ix1 q)
    (by rewrite [Shape.rowMajor_val_one, Shape.rowMajor_val_two]
        show q.val = 0 * 128 + q.val
        omega)

/-- The program's result after the region is the array the region wrote, given a new leading unit axis. -/
theorem tail_eq (c : Dev nD) :
    (Pipeline.afterTail₀ cfgs (dats m) 0 (V0 m) [hostOps1] c main_v2 : S1x8192x128.Idx → Elt F .f32)
      = broadcastInDim S1x8192x128 ![1, 2] bcast_S8192x128_S1x8192x128_1_2 ((dats m 0 c).arrAt 7 cfg0.N) := by
  unfold Pipeline.afterTail₀
  show StableHlo.after hostOps1 _ (Proc.devRef .tc main_v2) = _
  after_results
  -- the one operation after the region reads the region's output array, which holds what the region left there
  rw [Pipeline.withArrays_arr spec0 launch0.win.arr_inj c _ _ 7]

/-- The program's result after the region: entry (a, r, q) is entry (r, q) of the array the region wrote. -/
theorem tail_apply (c : Dev nD) (i : S1x8192x128.Idx) :
    Pipeline.afterTail₀ cfgs (dats m) 0 (V0 m) [hostOps1] c main_v2 i = (dats m 0 c).arrAt 7 cfg0.N (ix2 (i 1) (i 2)) := by
  refine (congrFun (tail_eq m c) i).trans ?_
  -- neither axis of the matrix has extent one, so each of its coordinates is the result's coordinate on the axis it maps to
  exact broadcastInDim_apply _ bcast_S8192x128_S1x8192x128_1_2 _ i (ix2 (i 1) (i 2)) (fun a => match a with
    | ⟨0, _⟩ => by show (i 1).val = if (8192 : Nat) = 1 then 0 else (i 1).val; rw [if_neg (by decide)]
    | ⟨1, _⟩ => by show (i 2).val = if (128 : Nat) = 1 then 0 else (i 2).val; rw [if_neg (by decide)])

end Cert.KernelIdeal.KVal

end
-- ==== Proof.LibPlainMatmul.lean ====
/-
  A plain matrix product read at one entry, over the extended reals.

  For the dimension numbers of an `M×K` by `K×N` product (`DotDims.plain M K N`: the left operand contracted on its
  second axis, the right on its first, no batch axis) the product accumulated into the zero splat has, at row `r` and
  column `c`, the entry `∑ k, lhs (r, k) * rhs (k, c)`: the contraction index, a one-axis multi-index, is re-indexed
  by its one coordinate `k : Fin K`, and the operand indices the dimension numbers compute are `(r, k)` and `(k, c)`.
  Stated for every `M`, `K`, `N`, with the indices built by `ix2`.
-/
import Idealize.ShloMosaic.Lib.ValueIdx
import Idealize.ShloMosaic.PureOps.Ideal.Laws

noncomputable section

namespace Cert.Lib.PlainMatmul

open Idealize.ShloMosaic Idealize.ShloMosaic.ValueIdx

variable {M K N : Nat}

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction index's one coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction index's one coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- THE ENTRY: an `M×K` by `K×N` product into the zero accumulator, at `(r, c)`, is the sum over `k` of
    `lhs (r, k) * rhs (k, c)` — no rounding, no order, whatever the operands' formats and the precision hint. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhs_row _ _).trans hk
      | ⟨1, _⟩ => exact rhs_col _ _)
  rw [el, er]

end Cert.Lib.PlainMatmul

end
-- ==== Proof.KPayload.lean ====
/-
  The kernel body's arithmetic, entry by entry, over the extended reals.

  At the first grid point the body forms three products of the features with a weight matrix (the third with the bias
  row added along the rows); at every point it adds to a row panel of the third the products of the two adjacency
  row panels with the first two, and clamps below at zero. Each product accumulates into the zero matrix, so its
  entry (r, c) is the plain sum over the contracted axis.
-/
import proofs.«175918_g38826504356516_cont_8to1_b_1379_13_alg».proof.Proof.Gen.KernelIdeal.Skeleton
import proofs.«175918_g38826504356516_cont_8to1_b_1379_13_alg».proof.Proof.LibPlainMatmul
import Idealize.ShloMosaic.Lib.Pipeline.Value
import Idealize.ShloMosaic.Lib.ValueLayout

noncomputable section

namespace Cert.KernelIdeal.KVal

open Idealize.ShloMosaic Idealize.ShloMosaic.ValueIdx Cert.KernelIdeal Cert.KernelIdeal.Gen

/-- The dimension numbers of the 8192×128 by 128×128 product are the plain ones: the left operand contracted on its
    second axis, the right on its first, no batch axis. The six lists agree literally and well-formedness is a
    proposition. -/
theorem dotFeat_eq : dot_S8192x128_S128x128_S8192x128_1_0_0_1_n_n = DotDims.plain 8192 128 128 := rfl

/-- Likewise for the 256×8192 by 8192×128 product of a row panel. -/
theorem dotPanel_eq : dot_S256x8192_S8192x128_S256x128_1_0_0_1_n_n = DotDims.plain 256 8192 128 := rfl

/-- Recasting the features to the shape they already have changes nothing. -/
theorem pay1_eq (x : Vec Ideal S8192x128 .f32) : k0_pay1 (F := Ideal) x = x := by
  unfold k0_pay1
  exact shapeCast_self _ _

/-- A single row of 128 entries broadcast down 8192 rows reads, at (r, c), the row's entry c: the row axis of the
    operand has extent one, so its coordinate is 0, and the column axis keeps the result's column. -/
theorem biasRow_apply (b : Vec Ideal S1x128 .f32) (h : S1x128.Broadcasts S8192x128) (r : Fin 8192) (c : Fin 128) :
    broadcastTo S8192x128 b h (ix2 r c) = b (ix2 0 c) :=
  broadcastTo_apply b h (ix2 r c) (ix2 0 c) (fun a => by
    match a with
    | ⟨0, _⟩ => rfl
    | ⟨1, _⟩ => rfl)

/-- The features times a weight matrix, entry (r, c). -/
theorem pay2_apply (x : Vec Ideal S8192x128 .f32) (w : Vec Ideal S128x128 .f32) (r : Fin 8192) (c : Fin 128) :
    k0_pay2 (F := Ideal) x w (ix2 r c) = ∑ k : Fin 128, x (ix2 r k) * w (ix2 k c) := by
  -- the two recasts are identities; what is left is the plain product into the zero matrix
  unfold k0_pay2
  rw [shapeCast_self, pay1_eq, dotFeat_eq]
  exact Cert.Lib.PlainMatmul.matmul_zero_apply none x w r c

theorem pay3_apply (x : Vec Ideal S8192x128 .f32) (w : Vec Ideal S128x128 .f32) (r : Fin 8192) (c : Fin 128) :
    k0_pay3 (F := Ideal) x w (ix2 r c) = ∑ k : Fin 128, x (ix2 r k) * w (ix2 k c) := by
  unfold k0_pay3
  rw [shapeCast_self, pay1_eq, dotFeat_eq]
  exact Cert.Lib.PlainMatmul.matmul_zero_apply none x w r c

/-- The features times the self weights plus the bias row, entry (r, c). -/
theorem pay4_apply (x : Vec Ideal S8192x128 .f32) (w : Vec Ideal S128x128 .f32) (b : Vec Ideal S1x128 .f32)
    (r : Fin 8192) (c : Fin 128) :
    k0_pay4 (F := Ideal) x w b (ix2 r c) = (∑ k : Fin 128, x (ix2 r k) * w (ix2 k c)) + b (ix2 0 c) := by
  -- the recasts (of the result, of the bias row, of the features) are identities; the entrywise sum then splits
  -- into the product's entry and the broadcast row's entry
  unfold k0_pay4
  rw [shapeCast_self, shapeCast_self, pay1_eq, dotFeat_eq]
  exact congrArg₂ (· + ·) (Cert.Lib.PlainMatmul.matmul_zero_apply none x w r c) (biasRow_apply b _ r c)

/-- A row panel's result, entry (p, q). -/
theorem pay5_apply (v5 : Vec Ideal S256x128 .f32) (v6 : Vec Ideal S256x8192 .f32) (v7 : Vec Ideal S8192x128 .f32)
    (v10 : Vec Ideal S256x8192 .f32) (v11 : Vec Ideal S8192x128 .f32) (p : Fin 256) (q : Fin 128) :
    k0_pay5 (F := Ideal) v5 v6 v7 v10 v11 (ix2 p q)
      = max ((v5 (ix2 p q) + ∑ k : Fin 8192, v6 (ix2 p k) * v7 (ix2 k q)) + ∑ k : Fin 8192, v10 (ix2 p k) * v11 (ix2 k q)) 0 := by
  -- entrywise: a maximum of a two-fold sum with the constant whose bit pattern is all zeros, which is the real 0;
  -- each summand that is a product reads as its plain sum over the 8192 contracted indices
  unfold k0_pay5
  rw [dotPanel_eq]
  exact congrArg₂ max
    (congrArg₂ (· + ·)
      (congrArg (v5 (ix2 p q) + ·) (Cert.Lib.PlainMatmul.matmul_zero_apply none v6 v7 p q))
      (Cert.Lib.PlainMatmul.matmul_zero_apply none v10 v11 p q))
    Ideal.ofBits_zero_f32

end Cert.KernelIdeal.KVal

end
-- ==== Proof.Spec.lean ====
/-
  The layer's value as one function of its seven arguments, over the extended reals.

  With `X` the node features (n × f), `A0`, `A1` the two dense adjacency matrices (n × n), `Ws`, `W0`, `W1` the
  three weight matrices (f × u) and `b` the bias (u), entry (r, c) of the result is
      max (X·Ws + A0·X·W0 + A1·X·W1 + b) 0.
  Two groupings of that sum are named here. `kform` multiplies the features by the weights first and the adjacency
  matrices second, and adds the bias to the self term before the neighbour terms:
      ((X·Ws + b) + A0·(X·W0)) + A1·(X·W1).
  `rform` aggregates the neighbours first, then applies the weights, and adds the bias last:
      ((X·Ws + (A0·X)·W0) + (A1·X)·W1) + b.
  Over the reals the two are equal: a matrix product is associative, (A·X)·W = A·(X·W) — by distributing the outer
  factor over the inner sum and exchanging the two finite sums — and addition is commutative and associative. On the
  extended reals distributivity fails at the infinities, so the equality is stated for real entries.
-/
import Idealize.ShloMosaic.Lib.ValueIdx
import Idealize.ShloMosaic.PureOps.Ideal.Laws

noncomputable section

open scoped BigOperators

namespace Cert.Spec

open Idealize.ShloMosaic Idealize.ShloMosaic.ValueIdx

/-- Entry (r, c) of the product of an M×K and a K×N matrix of extended reals. -/
def mm {M K N : ℕ} (A : Fin M → Fin K → EReal) (B : Fin K → Fin N → EReal) (r : Fin M) (c : Fin N) : EReal :=
  ∑ k : Fin K, A r k * B k c

/-- Weights first, adjacency second, the bias added to the self term. -/
def kform {n f u : ℕ} (X : Fin n → Fin f → EReal) (A0 A1 : Fin n → Fin n → EReal) (Ws W0 W1 : Fin f → Fin u → EReal)
    (b : Fin u → EReal) (r : Fin n) (c : Fin u) : EReal :=
  max (((mm X Ws r c + b c) + mm A0 (mm X W0) r c) + mm A1 (mm X W1) r c) 0

/-- Neighbour aggregation first, weights second, the bias added last. -/
def rform {n f u : ℕ} (X : Fin n → Fin f → EReal) (A0 A1 : Fin n → Fin n → EReal) (Ws W0 W1 : Fin f → Fin u → EReal)
    (b : Fin u → EReal) (r : Fin n) (c : Fin u) : EReal :=
  max (((mm X Ws r c + mm (mm A0 X) W0 r c) + mm (mm A1 X) W1 r c) + b c) 0

/-- Every entry of the matrix is a real number. -/
def Real2 {M N : ℕ} (A : Fin M → Fin N → EReal) : Prop := ∀ r c, ∃ x : ℝ, A r c = (x : EReal)
/-- Every entry of the vector is a real number. -/
def Real1 {N : ℕ} (b : Fin N → EReal) : Prop := ∀ c, ∃ x : ℝ, b c = (x : EReal)

/-- A finite sum of real numbers, each read as an extended real, is the real sum read as an extended real:
the embedding of ℝ is additive, and the claim follows by induction on the index set. -/
theorem coe_sum {ι : Type} (s : Finset ι) (g : ι → ℝ) :
    (∑ k ∈ s, ((g k : ℝ) : EReal)) = ((∑ k ∈ s, g k : ℝ) : EReal) := by
  classical
  induction s using Finset.induction_on with
  | empty => simp
  | insert a s ha ih => rw [Finset.sum_insert ha, Finset.sum_insert ha, ih, EReal.coe_add]

/-- A matrix all of whose entries are real is the entrywise embedding of a real matrix. -/
theorem Real2.exists_eq {M N : ℕ} {A : Fin M → Fin N → EReal} (h : Real2 A) :
    ∃ a : Fin M → Fin N → ℝ, A = fun r c => ((a r c : ℝ) : EReal) := by
  choose a ha using h
  exact ⟨a, funext fun r => funext fun c => ha r c⟩

/-- A vector all of whose entries are real is the entrywise embedding of a real vector. -/
theorem Real1.exists_eq {N : ℕ} {b : Fin N → EReal} (h : Real1 b) :
    ∃ β : Fin N → ℝ, b = fun c => ((β c : ℝ) : EReal) := by
  choose β hβ using h
  exact ⟨β, funext fun c => hβ c⟩

/-- The product of two embedded real matrices is the embedding of the real matrix product: each term is a
product of two reals, and the sum of embedded reals is the embedded sum. -/
theorem mm_coe {M K N : ℕ} (a : Fin M → Fin K → ℝ) (w : Fin K → Fin N → ℝ) :
    mm (fun r k => ((a r k : ℝ) : EReal)) (fun k c => ((w k c : ℝ) : EReal))
      = fun r c => ((∑ k, a r k * w k c : ℝ) : EReal) := by
  funext r c
  unfold mm
  simp only [← EReal.coe_mul]
  exact coe_sum _ _

/-- Associativity of the real matrix product at one entry: the outer factor is distributed over the inner sum on
each side, and the two finite sums are exchanged. -/
theorem real_assoc {n f : ℕ} (a : Fin n → ℝ) (x : Fin n → Fin f → ℝ) (w : Fin f → ℝ) :
    (∑ j, a j * ∑ k, x j k * w k) = ∑ k, (∑ j, a j * x j k) * w k := by
  simp only [Finset.mul_sum, Finset.sum_mul]
  rw [Finset.sum_comm]
  refine Finset.sum_congr rfl fun k _ => Finset.sum_congr rfl fun j _ => ?_
  ring

/-- On real entries the two groupings agree. -/
theorem kform_eq_rform {n f u : ℕ} (X : Fin n → Fin f → EReal) (A0 A1 : Fin n → Fin n → EReal)
    (Ws W0 W1 : Fin f → Fin u → EReal) (b : Fin u → EReal)
    (hX : Real2 X) (hA0 : Real2 A0) (hA1 : Real2 A1) (hWs : Real2 Ws) (hW0 : Real2 W0) (hW1 : Real2 W1) (hb : Real1 b)
    (r : Fin n) (c : Fin u) :
    kform X A0 A1 Ws W0 W1 b r c = rform X A0 A1 Ws W0 W1 b r c := by
  -- Name the real matrices behind the seven arguments.
  obtain ⟨x, rfl⟩ := hX.exists_eq
  obtain ⟨a0, rfl⟩ := hA0.exists_eq
  obtain ⟨a1, rfl⟩ := hA1.exists_eq
  obtain ⟨ws, rfl⟩ := hWs.exists_eq
  obtain ⟨w0, rfl⟩ := hW0.exists_eq
  obtain ⟨w1, rfl⟩ := hW1.exists_eq
  obtain ⟨β, rfl⟩ := hb.exists_eq
  -- Every product and every sum is then the embedding of a real one.
  unfold kform rform
  simp only [mm_coe, ← EReal.coe_add]
  -- What is left is an identity of real numbers under the embedding.
  have key : ((∑ k, x r k * ws k c + β c) + ∑ j, a0 r j * ∑ k, x j k * w0 k c) + ∑ j, a1 r j * ∑ k, x j k * w1 k c
      = ((∑ k, x r k * ws k c + ∑ k, (∑ j, a0 r j * x j k) * w0 k c) + ∑ k, (∑ j, a1 r j * x j k) * w1 k c) + β c := by
    rw [real_assoc (fun j => a0 r j) x (fun k => w0 k c), real_assoc (fun j => a1 r j) x (fun k => w1 k c)]
    ring
  rw [key]

/-! ## The arguments as matrices, and the two result arrays -/

/-- A rank-2 array as a matrix. -/
abbrev mat {M N : ℕ} (v : FVec Ideal ⟨2, ![M, N]⟩ .f32) : Fin M → Fin N → EReal := fun r c => v (ix2 r c)
/-- The features, a rank-3 array with a leading axis of extent one, as a matrix. -/
abbrev feat (v : FVec Ideal ⟨3, ![1, 8192, 128]⟩ .f32) : Fin 8192 → Fin 128 → EReal := fun r k => v (ix3 0 r k)
/-- A rank-1 array as a vector. -/
abbrev vec (v : FVec Ideal ⟨1, ![128]⟩ .f32) : Fin 128 → EReal := fun c => v (ix1 c)

/-- The result array in the first grouping: entry (0, r, c). -/
def kres (x0 : FVec Ideal ⟨3, ![1, 8192, 128]⟩ .f32) (x1 x2 : FVec Ideal ⟨2, ![8192, 8192]⟩ .f32)
    (x3 x4 x5 : FVec Ideal ⟨2, ![128, 128]⟩ .f32) (x6 : FVec Ideal ⟨1, ![128]⟩ .f32) :
    FVec Ideal ⟨3, ![1, 8192, 128]⟩ .f32 :=
  fun i => kform (feat x0) (mat x1) (mat x2) (mat x3) (mat x4) (mat x5) (vec x6) (i 1) (i 2)

/-- The result array in the second grouping. -/
def rres (x0 : FVec Ideal ⟨3, ![1, 8192, 128]⟩ .f32) (x1 x2 : FVec Ideal ⟨2, ![8192, 8192]⟩ .f32)
    (x3 x4 x5 : FVec Ideal ⟨2, ![128, 128]⟩ .f32) (x6 : FVec Ideal ⟨1, ![128]⟩ .f32) :
    FVec Ideal ⟨3, ![1, 8192, 128]⟩ .f32 :=
  fun i => rform (feat x0) (mat x1) (mat x2) (mat x3) (mat x4) (mat x5) (vec x6) (i 1) (i 2)

/-- Every entry of an array is a real number. -/
def RealArr {s : Shape} (v : FVec Ideal s .f32) : Prop := ∀ i, ∃ x : ℝ, v i = (x : EReal)

/-- On real arguments the two result arrays are one array. -/
theorem kres_eq_rres (x0 : FVec Ideal ⟨3, ![1, 8192, 128]⟩ .f32) (x1 x2 : FVec Ideal ⟨2, ![8192, 8192]⟩ .f32)
    (x3 x4 x5 : FVec Ideal ⟨2, ![128, 128]⟩ .f32) (x6 : FVec Ideal ⟨1, ![128]⟩ .f32)
    (h0 : RealArr x0) (h1 : RealArr x1) (h2 : RealArr x2) (h3 : RealArr x3) (h4 : RealArr x4) (h5 : RealArr x5)
    (h6 : RealArr x6) : kres x0 x1 x2 x3 x4 x5 x6 = rres x0 x1 x2 x3 x4 x5 x6 :=
  funext fun i => kform_eq_rform _ _ _ _ _ _ _ (fun r k => h0 _) (fun r k => h1 _) (fun r k => h2 _) (fun r k => h3 _)
    (fun r k => h4 _) (fun r k => h5 _) (fun c => h6 _) (i 1) (i 2)

end Cert.Spec

end
-- ==== Proof.KFinal.lean ====
/-
  The kernel program's result, over the extended reals.

  Entry (r, q) of the first scratch matrix is the (r, q) entry of features × first relation's weights; likewise the
  second; the third has the bias added. Entry (p, q) of the block written back at grid point `t` is therefore
      max (((X·Ws + b) + A0·(X·W0)) + A1·(X·W1)) 0
  at row `256 t + p`, column `q`: the block is the restriction of ONE matrix to rows `256 t … 256 t + 255`. The 32
  blocks tile the 8192 rows (row `r` lies in the block of point `r / 256`), so after the run the result matrix IS that
  matrix, and the closing broadcast puts the leading unit axis back.
-/
import proofs.«175918_g38826504356516_cont_8to1_b_1379_13_alg».proof.Proof.KInvariant
import proofs.«175918_g38826504356516_cont_8to1_b_1379_13_alg».proof.Proof.KBlocks
import proofs.«175918_g38826504356516_cont_8to1_b_1379_13_alg».proof.Proof.KHost
import proofs.«175918_g38826504356516_cont_8to1_b_1379_13_alg».proof.Proof.KPayload
import proofs.«175918_g38826504356516_cont_8to1_b_1379_13_alg».proof.Proof.Spec

noncomputable section
set_option maxRecDepth 16384

namespace Cert.KernelIdeal.KVal

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (m : (ℓ : Loc nD τ sig) → Buf (Elt Ideal) ℓ) (ρ : Dev nD → PrngReg)

/-- The result matrix in the kernel's grouping, as a function of the seven arguments. -/
def resMat (c : Dev nD) : Vec Ideal S8192x128 .f32 := fun i =>
  kform (feat (m ((c : Thread nD τ).loc main_arg0))) (mat (m ((c : Thread nD τ).loc main_arg1))) (mat (m ((c : Thread nD τ).loc main_arg2))) (mat (m ((c : Thread nD τ).loc main_arg3)))
    (mat (m ((c : Thread nD τ).loc main_arg4))) (mat (m ((c : Thread nD τ).loc main_arg5))) (vec (m ((c : Thread nD τ).loc main_arg6))) (i 0) (i 1)

/-- The first scratch matrix is features × first relation's weights. -/
theorem scrY0_apply (c : Dev nD) (r : Fin 8192) (q : Fin 128) :
    scrY0 m c (ix2 r q) = mm (feat (m ((c : Thread nD τ).loc main_arg0))) (mat (m ((c : Thread nD τ).loc main_arg4))) r q := by
  have e : scrY0 m c = k0_pay2 (F := Ideal) (arrX m c) (arrW0 m c) := by
    unfold scrY0; rw [blkX m c t0, blkW0 m c t0]
  rw [e, pay2_apply]
  refine Finset.sum_congr rfl fun k _ => ?_
  rw [arrX_apply]
  show _ * V m c main_arg4 (ix2 k q) = _
  rw [V_main_arg4]

/-- The second scratch matrix is features × second relation's weights. -/
theorem scrY1_apply (c : Dev nD) (r : Fin 8192) (q : Fin 128) :
    scrY1 m c (ix2 r q) = mm (feat (m ((c : Thread nD τ).loc main_arg0))) (mat (m ((c : Thread nD τ).loc main_arg5))) r q := by
  have e : scrY1 m c = k0_pay3 (F := Ideal) (arrX m c) (arrW1 m c) := by
    unfold scrY1; rw [blkX m c t0, blkW1 m c t0]
  rw [e, pay3_apply]
  refine Finset.sum_congr rfl fun k _ => ?_
  rw [arrX_apply]
  show _ * V m c main_arg5 (ix2 k q) = _
  rw [V_main_arg5]

/-- The third scratch matrix is features × self weights plus the bias. -/
theorem scrS_apply (c : Dev nD) (r : Fin 8192) (q : Fin 128) :
    scrS m c (ix2 r q) = mm (feat (m ((c : Thread nD τ).loc main_arg0))) (mat (m ((c : Thread nD τ).loc main_arg3))) r q + vec (m ((c : Thread nD τ).loc main_arg6)) q := by
  have e : scrS m c = k0_pay4 (F := Ideal) (arrX m c) (arrWs m c) (arrB m c) := by
    unfold scrS; rw [blkX m c t0, blkWs m c t0, blkB m c t0]
  rw [e, pay4_apply, arrB_apply]
  refine congrArg (· + _) (Finset.sum_congr rfl fun k _ => ?_)
  rw [arrX_apply]
  show _ * V m c main_arg3 (ix2 k q) = _
  rw [V_main_arg3]

/-- Entry (p, q) of the block point `t` leaves is the result matrix's entry (256 t + p, q). -/
theorem panel_eq (c : Dev nD) (t : Fin cfg0.N) (p : Fin 256) (q : Fin 128) :
    (stateAt m c t.val t.isLt).1 (ix2 p q) = resMat m c (ix2 (panelRow t p) q) := by
  show k0_pay5 (F := Ideal) (panelOf (grid0.coords t) (scrS m c)) (iblk m c 1 t) (scrY0 m c) (iblk m c 2 t) (scrY1 m c) (ix2 p q) = _
  rw [pay5_apply, panelOf_apply, scrS_apply]
  simp only [blkA0_apply, blkA1_apply, scrY0_apply, scrY1_apply]
  unfold arrA0 arrA1
  rw [V_main_arg1, V_main_arg2]
  rfl

/-- The same at any index of the block. -/
theorem block_eq (c : Dev nD) (t : Fin cfg0.N) (y : S256x128.Idx) :
    (stateAt m c t.val t.isLt).1 y = resMat m c (ix2 (panelRow t (y 0)) (y 1)) := by
  obtain ⟨p, q, rfl⟩ : ∃ (p : Fin 256) (q : Fin 128), y = ix2 p q := ⟨y 0, y 1, eq_ix2 y⟩
  exact panel_eq m c t p q

/-- The output window's index map: block `t` of the rows, the one block of the columns. -/
theorem idx7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

/-- What point `t` writes back is block `t` of the result matrix. -/
theorem flushed_eq (c : Dev nD) (t : Fin cfg0.N) :
    (dats m 0 c).flushed 7 t = ((cfg0.win 7).blk t).view.read (Elt Ideal) (resMat m c) := by
  show (cfg0.win 7).cut (grid0.coords t) ((dats m 0 c).after 7 t) = _
  rw [after0_7, outsAt_eq]
  obtain ⟨e0, e1⟩ := idx7 t
  funext j
  show (stateAt m c t.val t.isLt).1 j = resMat m c (((cfg0.win 7).blk t).view.emb j)
  refine (block_eq m c t j).trans (congrArg (resMat m c) ?_)
  funext a; apply Fin.ext
  match a with
  | ⟨0, _⟩ => show 256 * t.val + (j 0).val = win0_7.index t (0 : Fin 2) * 256 + 1 * (j 0).val; omega
  | ⟨1, _⟩ => show (j 1).val = win0_7.index t (1 : Fin 2) * 128 + 1 * (j 1).val; omega

/-- A row and column lie in point `t`'s block iff each coordinate is in the block's range. -/
theorem mem_blk (t : Fin cfg0.N) (i : S8192x128.Idx) :
    i ∈ ((cfg0.win 7).blk t).view.set ↔ ∀ a : Fin 2, win0_7.index t a * S256x128.size a ≤ (i a).val
      ∧ (i a).val < win0_7.index t a * S256x128.size a + S256x128.size a := by
  show i ∈ ((View.whole main_v1).slice (win0_7.rect t)).set ↔ _
  rw [View.set_slice_whole, Rect.mem_set_unit]
  exact Iff.rfl

/-- After the run the result matrix is `resMat`: row `r` is written by point `r / 256`. -/
theorem final (c : Dev nD) : (dats m 0 c).arrAt 7 cfg0.N = resMat m c :=
  (dats m 0 c).arrAt_eq_of_cover 7 (resMat m c) (fun t _ => flushed_eq m c t) fun i => by
    have h0 : (i 0).val < 8192 := (i 0).isLt
    have h1 : (i 1).val < 128 := (i 1).isLt
    have hN : cfg0.N = 32 := N_0
    obtain ⟨t, ht⟩ : ∃ t : Fin cfg0.N, t.val = (i 0).val / 256 := ⟨⟨(i 0).val / 256, by rw [hN]; omega⟩, rfl⟩
    obtain ⟨e0, e1⟩ := idx7 t
    refine ⟨t, flush0_7 t, ?_⟩
    rw [mem_blk]
    intro a
    match a with
    | ⟨0, _⟩ =>
      show win0_7.index t (0 : Fin 2) * 256 ≤ (i 0).val ∧ (i 0).val < win0_7.index t (0 : Fin 2) * 256 + 256
      omega
    | ⟨1, _⟩ =>
      show win0_7.index t (1 : Fin 2) * 128 ≤ (i 1).val ∧ (i 1).val < win0_7.index t (1 : Fin 2) * 128 + 128
      omega

/-- The program's result array: the result matrix with the leading unit axis restored. -/
theorem result_eq (c : Dev nD) :
    Pipeline.afterTail₀ cfgs (dats m) 0 (V0 m) [hostOps1] c main_v2 = kres (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  rw [tail_apply, final]
  rfl

/-- The run, read: the result at `kres` of the arguments, the arguments unchanged. -/
theorem run : θ_run defs (onTc (τ := τ) (main (F := Ideal))) ⟨m, fun _ => 0, ρ⟩ fun r => ∀ c : Dev nD,
      r.2.mem ((c.tc : Thread nD τ).loc main_v2) = kres (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c)⟩)
    (run_main m ρ)

end Cert.KernelIdeal.KVal

end
-- ==== Proof.RefValue.lean ====
/-
  The reference's result, entry by entry.

  Read one operation at a time, the reference's result array at (0, r, c) is
      max (((X·Ws + (A0·X)·W0) + (A1·X)·W1) + b) 0
  at (r, c): the reshape of the features drops the leading unit axis, each product is the sum over its one contracted
  axis, the bias is broadcast along the rows, and the closing broadcast restores the leading unit axis.
-/
import proofs.«175918_g38826504356516_cont_8to1_b_1379_13_alg».proof.Defs
import proofs.«175918_g38826504356516_cont_8to1_b_1379_13_alg».proof.Proof.Gen.ReferenceIdeal.Read
import proofs.«175918_g38826504356516_cont_8to1_b_1379_13_alg».proof.Proof.Spec

noncomputable section

open scoped BigOperators

namespace Cert.ReferenceIdeal.RefValue

open Idealize.ShloMosaic Idealize.ShloMosaic.ValueIdx Cert.ReferenceIdeal Cert.ReferenceIdeal.Read Cert.Spec

/-! ## Indices by coordinates -/

/-- Two rank-2 indices with the same two coordinates are one index. -/
theorem idx2_ext {n0 n1 : Nat} (f g : (⟨2, ![n0, n1]⟩ : Shape).Idx) (h0 : f 0 = g 0) (h1 : f 1 = g 1) : f = g := by
  funext a
  match a with
  | ⟨0, _⟩ => exact h0
  | ⟨1, _⟩ => exact h1

/-- Row-major position r·128 + k of the 8192 × 128 array is position (0, r, k) of the 1 × 8192 × 128 array:
    the quotient by 128 gives back r (below 8192) and the remainder gives back k. -/
theorem idx_v0 (r : Fin 8192) (k : Fin 128) : idx_main_v0 (ix2 r k) = ix3 (0 : Fin 1) r k := by
  funext a
  match a with
  | ⟨0, _⟩ => rfl
  | ⟨1, _⟩ =>
    refine Fin.ext ?_
    show (r.val * 128 + k.val) / 128 % 8192 = r.val
    have hr := r.isLt
    have hk := k.isLt
    omega
  | ⟨2, _⟩ =>
    refine Fin.ext ?_
    show (r.val * 128 + k.val) % 128 = k.val
    have hk := k.isLt
    omega

/-- The closing broadcast reads entry (a, r, c) of the result at (r, c). -/
theorem idx_v12 (a : Fin 1) (r : Fin 8192) (c : Fin 128) : idx_main_v12 (ix3 a r c) = ix2 r c :=
  idx2_ext _ _ rfl rfl

/-- The bias, broadcast along the rows, is read at its column: (r, c) ↦ (0, c) ↦ c. -/
theorem idx_v9 (r : Fin 8192) (c : Fin 128) : idx_main_v8 (idx_main_v9 (ix2 r c)) = ix1 c := by
  funext a
  match a with
  | ⟨0, _⟩ => rfl

/-! ## The operations, entry by entry -/

/-- The reshaped features at (r, k) are the features at (0, r, k). -/
theorem v0_eq (x0 : (⟨S1x8192x128, .f32⟩ : BufTy).Contents (Elt Ideal)) (r : Fin 8192) (k : Fin 128) :
    val_main_v0 (F := Ideal) x0 (ix2 r k) = feat x0 r k := by
  rw [val_main_v0_apply, idx_v0]

/-- X·Ws. -/
theorem v1_eq (x0 : (⟨S1x8192x128, .f32⟩ : BufTy).Contents (Elt Ideal)) (x3 : (⟨S128x128, .f32⟩ : BufTy).Contents (Elt Ideal))
    (r : Fin 8192) (c : Fin 128) :
    val_main_v1 (F := Ideal) x0 x3 (ix2 r c) = mm (feat x0) (mat x3) r c := by
  rw [val_main_v1_apply]
  refine Finset.sum_congr rfl fun k _ => ?_
  rw [show lidx_main_v1 (ix2 r c) k = ix2 r k from idx2_ext _ _ rfl rfl,
    show ridx_main_v1 (ix2 r c) k = ix2 k c from idx2_ext _ _ rfl rfl, v0_eq]

/-- A0·X. -/
theorem v2_eq (x0 : (⟨S1x8192x128, .f32⟩ : BufTy).Contents (Elt Ideal)) (x1 : (⟨S8192x8192, .f32⟩ : BufTy).Contents (Elt Ideal))
    (r : Fin 8192) (c : Fin 128) :
    val_main_v2 (F := Ideal) x0 x1 (ix2 r c) = mm (mat x1) (feat x0) r c := by
  rw [val_main_v2_apply]
  refine Finset.sum_congr rfl fun k _ => ?_
  rw [show lidx_main_v2 (ix2 r c) k = ix2 r k from idx2_ext _ _ rfl rfl,
    show ridx_main_v2 (ix2 r c) k = ix2 k c from idx2_ext _ _ rfl rfl, v0_eq]

/-- (A0·X)·W0. -/
theorem v3_eq (x0 : (⟨S1x8192x128, .f32⟩ : BufTy).Contents (Elt Ideal)) (x1 : (⟨S8192x8192, .f32⟩ : BufTy).Contents (Elt Ideal))
    (x4 : (⟨S128x128, .f32⟩ : BufTy).Contents (Elt Ideal)) (r : Fin 8192) (c : Fin 128) :
    val_main_v3 (F := Ideal) x0 x1 x4 (ix2 r c) = mm (mm (mat x1) (feat x0)) (mat x4) r c := by
  rw [val_main_v3_apply]
  refine Finset.sum_congr rfl fun k _ => ?_
  rw [show lidx_main_v3 (ix2 r c) k = ix2 r k from idx2_ext _ _ rfl rfl,
    show ridx_main_v3 (ix2 r c) k = ix2 k c from idx2_ext _ _ rfl rfl, v2_eq]

/-- A1·X. -/
theorem v5_eq (x0 : (⟨S1x8192x128, .f32⟩ : BufTy).Contents (Elt Ideal)) (x2 : (⟨S8192x8192, .f32⟩ : BufTy).Contents (Elt Ideal))
    (r : Fin 8192) (c : Fin 128) :
    val_main_v5 (F := Ideal) x0 x2 (ix2 r c) = mm (mat x2) (feat x0) r c := by
  rw [val_main_v5_apply]
  refine Finset.sum_congr rfl fun k _ => ?_
  rw [show lidx_main_v5 (ix2 r c) k = ix2 r k from idx2_ext _ _ rfl rfl,
    show ridx_main_v5 (ix2 r c) k = ix2 k c from idx2_ext _ _ rfl rfl, v0_eq]

/-- (A1·X)·W1. -/
theorem v6_eq (x0 : (⟨S1x8192x128, .f32⟩ : BufTy).Contents (Elt Ideal)) (x2 : (⟨S8192x8192, .f32⟩ : BufTy).Contents (Elt Ideal))
    (x5 : (⟨S128x128, .f32⟩ : BufTy).Contents (Elt Ideal)) (r : Fin 8192) (c : Fin 128) :
    val_main_v6 (F := Ideal) x0 x2 x5 (ix2 r c) = mm (mm (mat x2) (feat x0)) (mat x5) r c := by
  rw [val_main_v6_apply]
  refine Finset.sum_congr rfl fun k _ => ?_
  rw [show lidx_main_v6 (ix2 r c) k = ix2 r k from idx2_ext _ _ rfl rfl,
    show ridx_main_v6 (ix2 r c) k = ix2 k c from idx2_ext _ _ rfl rfl, v5_eq]

/-- The broadcast bias at (r, c) is the bias at c. -/
theorem v9_eq (x6 : (⟨S128, .f32⟩ : BufTy).Contents (Elt Ideal)) (r : Fin 8192) (c : Fin 128) :
    val_main_v9 (F := Ideal) x6 (ix2 r c) = vec x6 c := by
  rw [val_main_v9_apply, val_main_v8_apply, idx_v9]

/-- The broadcast constant is zero at every entry. -/
theorem zero_eq (i : S8192x128.Idx) : val_main_call0_v0 (F := Ideal) i = (0 : EReal) := by
  rw [val_main_call0_v0_apply, val_main_call0_cst_apply]
  exact Ideal.ofBits_zero_f32

/-- The reference's last stage is the result array in the second grouping. -/
theorem ref_eq (x0 : (⟨S1x8192x128, .f32⟩ : BufTy).Contents (Elt Ideal)) (x1 x2 : (⟨S8192x8192, .f32⟩ : BufTy).Contents (Elt Ideal))
    (x3 x4 x5 : (⟨S128x128, .f32⟩ : BufTy).Contents (Elt Ideal)) (x6 : (⟨S128, .f32⟩ : BufTy).Contents (Elt Ideal)) :
    val_main_v12 (F := Ideal) x0 x1 x2 x3 x4 x5 x6 = rres x0 x1 x2 x3 x4 x5 x6 := by
  funext i
  obtain ⟨a, r, c, rfl⟩ : ∃ a r c, i = ix3 a r c := ⟨i 0, i 1, i 2, eq_ix3 i⟩
  rw [val_main_v12_apply, idx_v12, val_main_v11_apply, val_main_v10_apply, val_main_v7_apply, val_main_v4_apply,
    v1_eq, v3_eq, v6_eq, v9_eq, zero_eq]
  simp only [Ideal.addf_def, Ideal.maximumf_def]
  rfl

end Cert.ReferenceIdeal.RefValue

end
-- ==== Proof.Finite.lean ====
/-
  From the precondition to real entries.

  The precondition is the conjunction, over the seven arguments, of "every entry has absolute value below +inf".
  On the extended reals an entry whose absolute value is below +inf is neither +inf nor -inf: it is a real number.
-/
import proofs.«175918_g38826504356516_cont_8to1_b_1379_13_alg».proof.Pre_finite_inputs
import proofs.«175918_g38826504356516_cont_8to1_b_1379_13_alg».proof.Proof.Gen.Pre_finite_inputs
import proofs.«175918_g38826504356516_cont_8to1_b_1379_13_alg».proof.Proof.Spec
import Idealize.ShloMosaic.Lib.ReduceAll

noncomputable section

namespace Cert.Finite

open Idealize.ShloMosaic Idealize.ShloMosaic.ValueIdx Cert.Pre_finite_inputs Cert.Spec

/-- The empty shape has exactly one index. -/
instance : Subsingleton S_.Idx := ⟨fun a b => funext fun d => d.elim0⟩

/-- The pattern 0x7F800000 (all exponent bits set, zero fraction) denotes +inf. -/
theorem top_eq : Ideal.ofBits .f32 0x7F800000#32 = (⊤ : EReal) := by simp [Ideal.ofBits, Ideal.ieee]

/-- An extended real whose absolute value max x (-x) is below +inf is a real number: at -inf the negation is +inf, at
    +inf the value itself is, and neither is below +inf. -/
theorem real_of_abs_lt_top (x : EReal) (h : max x (-x) < ⊤) : ∃ r : ℝ, x = (r : EReal) := by
  induction x using EReal.rec with
  | bot => simp at h
  | coe r => exact ⟨r, rfl⟩
  | top => simp at h

/-- The ordered "less than" against +inf comes out as the one-bit word 1 only when the strict inequality holds. -/
theorem lt_top_of_cmp (a : EReal) (h : Ideal.cmp .olt a ⊤ = 1#1) : a < ⊤ := by
  unfold Ideal.cmp at h
  by_contra hn
  simp [hn] at h

/-- For any shape: if every entry's absolute value compares below the broadcast +inf, every entry is real. -/
theorem realArr_of_all {s : Shape} (hb : S_.BroadcastsInDim s (![] : Fin 0 → Fin s.rank)) (x : FVec Ideal s .f32)
    (h : ∀ i, cmpf .olt (Host.absf x) (broadcastInDim s ![] hb (constant S_ .f32 0x7F800000#32)) i = 1#1) :
    RealArr x := by
  intro i
  have hi := h i
  simp only [cmpf, Host.absf, broadcastInDim, constant] at hi
  have hi' : Ideal.cmp .olt (max (x i : EReal) (-(x i : EReal))) (Ideal.ofBits .f32 0x7F800000#32) = 1#1 := hi
  rw [top_eq] at hi'
  exact real_of_abs_lt_top _ (lt_top_of_cmp _ hi')

/-- The conjunction of two one-bit arrays is 1 at an index exactly when both are. -/
theorem andi_at {s : Shape} (a b : IVec s 1) (i : s.Idx) : andi a b i = 1#1 ↔ a i = 1#1 ∧ b i = 1#1 :=
  IntOp.andi_eq_one

/-- One argument's part of the precondition: the "all" over its comparison array being 1 makes the argument real. -/
theorem realArr_of_reduce {s : Shape} {axes : List (Fin s.rank)} (hb : S_.BroadcastsInDim s (![] : Fin 0 → Fin s.rank))
    (hr : s.ReducesTo axes S_) (hu : 0 < S_.numel) (x : FVec Ideal s .f32) (j : S_.Idx)
    (e : Host.reduce IntOp.andi (cmpf .olt (Host.absf x) (broadcastInDim s ![] hb (constant S_ .f32 0x7F800000#32)))
      (constantI S_ 1 1#1) hr hu j = 1#1) : RealArr x :=
  realArr_of_all hb x (Host.reduce_andi_all _ _ hr hu j e)

/-- If the precondition's word is one, every entry of every argument is a real number. -/
theorem real_of_pre [Cert.Pre_finite_inputs.Facts] (x0 : FVec Ideal S1x8192x128 .f32) (x1 x2 : FVec Ideal S8192x8192 .f32)
    (x3 x4 x5 : FVec Ideal S128x128 .f32) (x6 : FVec Ideal S128 .f32)
    (h : Cert.Pre_finite_inputs.fn (F := Ideal) x0 x1 x2 x3 x4 x5 x6 = fun _ => 1#1) :
    RealArr x0 ∧ RealArr x1 ∧ RealArr x2 ∧ RealArr x3 ∧ RealArr x4 ∧ RealArr x5 ∧ RealArr x6 := by
  have h0 := congrFun h ValueIdx.ix0
  dsimp only [fn, fn_part1] at h0
  obtain ⟨h0, e6⟩ := (andi_at _ _ _).1 h0
  obtain ⟨h0, e5⟩ := (andi_at _ _ _).1 h0
  obtain ⟨h0, e4⟩ := (andi_at _ _ _).1 h0
  obtain ⟨h0, e3⟩ := (andi_at _ _ _).1 h0
  obtain ⟨h0, e2⟩ := (andi_at _ _ _).1 h0
  obtain ⟨e0, e1⟩ := (andi_at _ _ _).1 h0
  exact ⟨realArr_of_reduce _ _ _ x0 _ e0, realArr_of_reduce _ _ _ x1 _ e1, realArr_of_reduce _ _ _ x2 _ e2,
    realArr_of_reduce _ _ _ x3 _ e3, realArr_of_reduce _ _ _ x4 _ e4, realArr_of_reduce _ _ _ x5 _ e5,
    realArr_of_reduce _ _ _ x6 _ e6⟩

end Cert.Finite

end
-- ==== Proof.lean ====
/-
  A relational graph convolution layer, relu (X·Ws + A0·X·W0 + A1·X·W1 + b), computed two ways.

  The kernel multiplies the features by the three weight matrices once, at the first of 32 grid points, keeps the
  three products in scratch memory, and then, row panel by row panel, adds to the self term (with the bias already in
  it) the products of the two adjacency row panels with the other two, clamping at zero:
      max (((X·Ws + b) + A0·(X·W0)) + A1·(X·W1)) 0.
  The reference aggregates the neighbours first and applies the weights second, adding the bias last:
      max (((X·Ws + (A0·X)·W0) + (A1·X)·W1) + b) 0.
  Over the reals the two are the same number entry by entry — a matrix product is associative and addition is
  commutative — and the precondition makes every entry of every argument real. Nothing was rewritten when the kernel
  was idealized, so that conjunct is trivial; the three frames are the generated ones (the reference's is its run with
  the result dropped).
-/
import proofs.«175918_g38826504356516_cont_8to1_b_1379_13_alg».proof.Defs
import proofs.«175918_g38826504356516_cont_8to1_b_1379_13_alg».proof.Proof.Gen.Kernel
import proofs.«175918_g38826504356516_cont_8to1_b_1379_13_alg».proof.Proof.Gen.Kernel.Skeleton
import proofs.«175918_g38826504356516_cont_8to1_b_1379_13_alg».proof.Proof.Gen.Kernel.Launch
import proofs.«175918_g38826504356516_cont_8to1_b_1379_13_alg».proof.Proof.Gen.Kernel.Points
import proofs.«175918_g38826504356516_cont_8to1_b_1379_13_alg».proof.Proof.Gen.Kernel.Frame
import proofs.«175918_g38826504356516_cont_8to1_b_1379_13_alg».proof.Proof.Gen.KernelIdeal
import proofs.«175918_g38826504356516_cont_8to1_b_1379_13_alg».proof.Proof.Gen.KernelIdeal.Skeleton
import proofs.«175918_g38826504356516_cont_8to1_b_1379_13_alg».proof.Proof.Gen.KernelIdeal.Launch
import proofs.«175918_g38826504356516_cont_8to1_b_1379_13_alg».proof.Proof.Gen.KernelIdeal.Points
import proofs.«175918_g38826504356516_cont_8to1_b_1379_13_alg».proof.Proof.Gen.KernelIdeal.Frame
import proofs.«175918_g38826504356516_cont_8to1_b_1379_13_alg».proof.Proof.Gen.ReferenceIdeal
import proofs.«175918_g38826504356516_cont_8to1_b_1379_13_alg».proof.Proof.Gen.ReferenceIdeal.Run
import proofs.«175918_g38826504356516_cont_8to1_b_1379_13_alg».proof.Proof.Gen.ReferenceIdeal.Read
import proofs.«175918_g38826504356516_cont_8to1_b_1379_13_alg».proof.Proof.Gen.Pre_finite_inputs
import proofs.«175918_g38826504356516_cont_8to1_b_1379_13_alg».proof.Proof.KFinal
import proofs.«175918_g38826504356516_cont_8to1_b_1379_13_alg».proof.Proof.RefValue
import proofs.«175918_g38826504356516_cont_8to1_b_1379_13_alg».proof.Proof.Finite
import Idealize.ShloMosaic.Adequacy
import Idealize.ShloMosaic.Init

noncomputable section

namespace Cert.Proof

open Idealize.ShloMosaic Idealize.SL.Sem

/-- The word-level kernel runs, faults nowhere, and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree and are finite, both programs end at the same array: the kernel at the first grouping of
    the sum, the reference at the second, equal on real entries. -/
theorem algebraic : Cert.algebraic_KernelIdeal_ReferenceIdeal := by
  intro m ρ m' ρ' hpre hagree
  refine ⟨_, Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.ref_eq, (hagree c).1, (hagree c).2.1,
    (hagree c).2.2.1, (hagree c).2.2.2.1, (hagree c).2.2.2.2.1, (hagree c).2.2.2.2.2.1, (hagree c).2.2.2.2.2.2]
  obtain ⟨h0, h1, h2, h3, h4, h5, h6⟩ := Cert.Finite.real_of_pre _ _ _ _ _ _ _ (hpre c)
  exact (Cert.Spec.kres_eq_rres _ _ _ _ _ _ _ h0 h1 h2 h3 h4 h5 h6).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
